-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 32000#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x32000 : Shape := ⟨2, ![8192, 32000]⟩
abbrev S8192 : Shape := ⟨1, ![8192]⟩
abbrev S8192x1 : Shape := ⟨2, ![8192, 1]⟩
abbrev S512x1 : Shape := ⟨2, ![512, 1]⟩
abbrev S512x3200 : Shape := ⟨2, ![512, 3200]⟩
abbrev S512 : Shape := ⟨1, ![512]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x1, .i32⟩
  | .local _ .vmem, ⟨1, _⟩ => ⟨S512x1, .i32⟩
  | .local _ .vmem, ⟨2, _⟩ => ⟨S512x3200, .f32⟩
  | .local _ .vmem, ⟨3, _⟩ => ⟨S512x3200, .f32⟩
  | .local _ .vmem, ⟨4, _⟩ => ⟨S512x1, .f32⟩
  | .local _ .vmem, ⟨5, _⟩ => ⟨S512x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192_S8192x1 : S8192.ShapeCasts S8192x1
  iota_S512x3200_d1_w32 : S512x3200.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x3200 : S512x1.Broadcasts S512x3200
  inb_S512x3200_S512x3200_0_0 : ∀ a, (![0, 0] : Fin 2 → Nat) a + S512x3200.size a ≤ S512x3200.size a
  h_S512x3200 : 0 < S512x3200.numel
  reduces_S512x3200_S512 : S512x3200.Reduces [1] S512
  shapeCasts_S512_S512x1 : S512.ShapeCasts S512x1
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .i32 = 32 ∨ (Rect.block (s := S8192x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3200.size a ≤ S8192x32000.size a
  hwx0_1 : ∀ i : grid0.Coords, EltTy.bits .f32 = 32 ∨ (Rect.block (s := S8192x32000) S512x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x32000 : Shape := ⟨2, ![8192, 32000]⟩
abbrev S8192 : Shape := ⟨1, ![8192]⟩
abbrev S8192x1 : Shape := ⟨2, ![8192, 1]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S_, .i32⟩
  | .hbm, ⟨4, _⟩ => ⟨S8192x1, .i32⟩
  | .hbm, ⟨5, _⟩ => ⟨S8192x1, .i1⟩
  | .hbm, ⟨6, _⟩ => ⟨S_, .i32⟩
  | .hbm, ⟨7, _⟩ => ⟨S8192x1, .i32⟩
  | .hbm, ⟨8, _⟩ => ⟨S8192x1, .i32⟩
  | .hbm, ⟨9, _⟩ => ⟨S8192x1, .i32⟩
  | .hbm, ⟨10, _⟩ => ⟨S8192x1x1, .i32⟩
  | .hbm, ⟨11, _⟩ => ⟨S1, .i32⟩
  | .hbm, ⟨12, _⟩ => ⟨S_, .i32⟩
  | .hbm, ⟨13, _⟩ => ⟨S8192x1x1, .i32⟩
  | .hbm, ⟨14, _⟩ => ⟨S8192x1x1, .i1⟩
  | .hbm, ⟨15, _⟩ => ⟨S1x1x1, .i32⟩
  | .hbm, ⟨16, _⟩ => ⟨S8192x1x1, .i32⟩
  | .hbm, ⟨17, _⟩ => ⟨S8192x1x1, .i1⟩
  | .hbm, ⟨18, _⟩ => ⟨S8192x1x1, .i1⟩
  | .hbm, ⟨19, _⟩ => ⟨S_, .i1⟩
  | .hbm, ⟨20, _⟩ => ⟨S8192x1, .i1⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_cst_1 : Ref sig .tc := ⟨.hbm, 31, rfl⟩
abbrev main_v6 : Ref sig .tc := ⟨.hbm, 32, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  shapeCasts_S8192x1_S8192 : S8192x1.ShapeCasts S8192
  bcast_S_S8192 : S_.BroadcastsInDim S8192 (![] : Fin 0 → Fin S8192.rank)
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.KPieces.lean ====
/-
  What each of the body's three control cases leaves in the output block, as a pure function of what the body loads.
-/
import proofs.«426071_j90374701842716_2_alg».proof.Proof.Gen.KernelIdeal.Frame
import Idealize.ShloMosaic.Lib.Pipeline.Value
import Idealize.ShloMosaic.Lib.Tactic

noncomputable section

namespace Cert.GatherLoss.KI

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

theorem out_B (c : Dev nD) (i : grid0.Coords) (a2 : Memref sig .tc .vmem S512x1 .i32) (h2 : a2.IsWhole)
    (a3 : Memref sig .tc .vmem S512x3200 .f32) (h3 : a3.IsWhole) (a4 : Memref sig .tc .vmem S512x1 .f32) (h4 : a4.IsWhole)
    (hc0 : ¬cond0_0 i) (hc1 : ¬cond0_1 i) (x0 : Vec F S512x1 .i32) (x1 : Vec F S512x3200 .f32) (xo2 : Vec F S512x1 .f32) :
    out0_B_2 c i a2 h2 a3 h3 a4 h4 hc0 hc1 x0 x1 xo2 = k0_pay2 i x0 x1 xo2 := by
  unfold out0_B_2
  rw [View.read_writes_eq_canon _ _ _ (cover0_B_2 c i a2 h2 a3 h3 a4 h4 hc0 hc1 x0 x1 xo2)]
  unfold kernelRun0_B
  dsimp only
  sl_unfold_words
  rw [View.canon_unit_zero hz]
  simp only [View.readAt_eq_ld, h2.read_unread, h3.read_unread, h4.read_unread, View.ld_unit_zero (S := S512x1) hz,
    View.ld_unit_zero (S := S512x3200) hz]

theorem out_A (c : Dev nD) (i : grid0.Coords) (a2 : Memref sig .tc .vmem S512x1 .i32) (h2 : a2.IsWhole)
    (a3 : Memref sig .tc .vmem S512x3200 .f32) (h3 : a3.IsWhole) (a4 : Memref sig .tc .vmem S512x1 .f32) (h4 : a4.IsWhole)
    (hc0 : cond0_0 i) (hc1 : ¬cond0_1 i) (x0 : Vec F S512x1 .i32) (x1 : Vec F S512x3200 .f32) :
    out0_A_2 c i a2 h2 a3 h3 a4 h4 hc0 hc1 x0 x1 = k0_pay2 i x0 x1 (k0_pay1 (F := F)) := by
  unfold out0_A_2
  rw [View.read_writes_eq_canon _ _ _ (cover0_A_2 c i a2 h2 a3 h3 a4 h4 hc0 hc1 x0 x1)]
  unfold kernelRun0_A
  dsimp only
  sl_unfold_words
  rw [View.canon_cons_unit_zero (S := S512x1) hz, View.readCov_unit_zero (S := S512x1) _ hz]
  simp only [View.readAt_eq_ld, h2.read_unread, h3.read_unread, View.ld_unit_zero (S := S512x1) hz,
    View.ld_unit_zero (S := S512x3200) hz]

theorem out_C (c : Dev nD) (i : grid0.Coords) (a2 : Memref sig .tc .vmem S512x1 .i32) (h2 : a2.IsWhole)
    (a3 : Memref sig .tc .vmem S512x3200 .f32) (h3 : a3.IsWhole) (a4 : Memref sig .tc .vmem S512x1 .f32) (h4 : a4.IsWhole)
    (hc0 : ¬cond0_0 i) (hc1 : cond0_1 i) (x0 : Vec F S512x1 .i32) (x1 : Vec F S512x3200 .f32) (xo2 : Vec F S512x1 .f32) :
    out0_C_2 c i a2 h2 a3 h3 a4 h4 hc0 hc1 x0 x1 xo2 = k0_pay3 (k0_pay2 i x0 x1 xo2) := by
  unfold out0_C_2
  rw [View.read_writes_eq_canon _ _ _ (cover0_C_2 c i a2 h2 a3 h3 a4 h4 hc0 hc1 x0 x1 xo2)]
  unfold kernelRun0_C
  dsimp only
  sl_unfold_words
  rw [View.canon_cons_unit_zero (S := S512x1) hz, View.readCov_unit_zero (S := S512x1) _ hz]
  simp only [View.readAt_eq_ld, h2.read_unread, h3.read_unread, h4.read_unread, View.ld_unit_zero (S := S512x1) hz,
    View.ld_unit_zero (S := S512x3200) hz]

end Cert.GatherLoss.KI

end
-- ==== Proof.TileSum.lean ====
/-
  One column tile's contribution to a row's gathered logit.

  The body compares the column number `q` inside tile `j` (a tile is 3200 columns wide, ten tiles cover the 32000
  classes) with the row's class word shifted by the tile's first column, `w - 3200 j`, as 32-bit words, keeps the
  logit where they agree and a zero elsewhere, and sums over the tile.  For a class word that is a class number
  (`w < 32000`) the two words agree exactly when `q + 3200 j` IS the class, so the tile's sum is the class's logit when
  the class lies in the tile and zero when it does not; a sum with one term that is not zero is that term in any
  additive monoid, so nothing here needs the logits finite.
-/
import Idealize.ShloMosaic.PureOps.Ideal
import Idealize.ShloMosaic.Lib.ValueIdx

noncomputable section

namespace Cert.GatherLoss

open Idealize.ShloMosaic

/-- Column `q` of tile `j` passes the body's word test exactly when it is the class. -/
theorem col_test (w : BitVec 32) (j q : ℕ) (hj : j < 10) (hq : q < 3200) (hw : w.toNat < 32000) :
    BitVec.ofNat 32 q = w - BitVec.ofNat 32 j * 3200#32 ↔ q + 3200 * j = w.toNat := by
  constructor
  · intro h
    have := congrArg BitVec.toNat h
    simp only [BitVec.toNat_ofNat, BitVec.toNat_sub, BitVec.toNat_mul] at this
    omega
  · intro h
    apply BitVec.eq_of_toNat_eq
    simp only [BitVec.toNat_ofNat, BitVec.toNat_sub, BitVec.toNat_mul]
    omega

/-- A tile's sum of the kept logits: the class's logit if the class is in the tile, else zero. -/
theorem tile_sum {M : Type} [AddCommMonoid M] (w : BitVec 32) (j : ℕ) (hj : j < 10) (hw : w.toNat < 32000) (f : Fin 3200 → M) :
    (∑ q : Fin 3200, if BitVec.ofNat 32 q.val = w - BitVec.ofNat 32 j * 3200#32 then f q else 0)
      = if h : 3200 * j ≤ w.toNat ∧ w.toNat < 3200 * (j + 1) then f ⟨w.toNat - 3200 * j, by omega⟩ else 0 := by
  split
  · rename_i h
    rw [Finset.sum_eq_single (⟨w.toNat - 3200 * j, by omega⟩ : Fin 3200)]
    · rw [if_pos ((col_test w j _ hj (by omega) hw).mpr (by show w.toNat - 3200 * j + 3200 * j = w.toNat; omega))]
    · intro q _ hne
      rw [if_neg]
      intro hq
      have := (col_test w j q.val hj q.isLt hw).mp hq
      exact hne (Fin.ext (by show q.val = w.toNat - 3200 * j; omega))
    · intro h'; exact absurd (Finset.mem_univ _) h'
  · rename_i h
    refine Finset.sum_eq_zero fun q _ => ?_
    rw [if_neg]
    intro hq
    have := (col_test w j q.val hj q.isLt hw).mp hq
    have := q.isLt
    exact h ⟨by omega, by omega⟩

end Cert.GatherLoss

end
-- ==== Proof.LibBroadcastColumn.lean ====
/-
  One column broadcast over many: a `[a, 1]` array broadcast to `[a, b]` reads, at `(p, c)`, the operand's one
  column at row `p`.  (The companion of the library's row form `broadcastTo_1b_ab_apply`: a per-row bias added to
  every column of a matrix.)
-/
import Idealize.ShloMosaic.Lib.Pipeline.Value
import Idealize.ShloMosaic.Lib.ValueIdx

namespace Idealize.ShloMosaic.ValueIdx

variable {α : Type}

/-- A `[a, 1]` array broadcast to `[a, b]` reads, at `(p, c)`, the operand's one column at `p`: the row axis is kept
    (or has extent one, and then `p = 0`), the unit column axis reads its only index. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnCast.lean ====
/-
  A vector stood up as a column: an `[a]` array cast to `[a, 1]` reads, at `(i, u)`, the operand at `i`, whatever
  the unit coordinate `u`.  (The trailing-axis companion of the library's leading-axis form `shapeCast_a_1a_apply`:
  what `keepdims=True` does to a row reduction's result.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`: both indices have row-major position
    `i`, since the unit coordinate is `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.KPayload.lean ====
/-
  The body's three stored values read at an element, over the extended reals.

  The reset stores zeros; the update stores, at row `p`, what the block held plus the tile's sum of the logits the
  word test keeps; the last step stores one minus what the block held.
-/
import proofs.«426071_j90374701842716_2_alg».proof.Proof.Gen.KernelIdeal.Skeleton
import proofs.«426071_j90374701842716_2_alg».proof.Proof.TileSum
import proofs.«426071_j90374701842716_2_alg».proof.Proof.LibBroadcastColumn
import proofs.«426071_j90374701842716_2_alg».proof.Proof.LibColumnCast
import Idealize.ShloMosaic.Lib.Pipeline.Value
import Idealize.ShloMosaic.Lib.ValueIdx
import Idealize.ShloMosaic.Lib.IdealHost
import Idealize.ShloMosaic.Lib.StableHlo.Predicate
import Idealize.ShloMosaic.PureOps.Ideal.Laws

noncomputable section

namespace Cert.GatherLoss.KI

open Idealize.ShloMosaic Idealize.ShloMosaic.ValueIdx
open Cert.KernelIdeal Cert.KernelIdeal.Gen

/-- The reset's value is zero everywhere. -/
theorem pay1_apply (y : S512x1.Idx) : k0_pay1 (F := Ideal) y = 0 := by
  unfold k0_pay1
  exact Ideal.ofBits_zero_f32

/-- The last step's value: one minus what the block held. -/
theorem pay3_apply (v : Vec Ideal S512x1 .f32) (y : S512x1.Idx) : k0_pay3 (F := Ideal) v y = 1 - v y := by
  unfold k0_pay3
  rw [shapeCast_self]
  show Ideal.ofBits .f32 0x3F800000#32 - v y = 1 - v y
  rw [Ideal.ofBits_one_f32]

/-- The lane the row sum inserts: row `p`, column `q`. -/
theorem lift_row (p : Fin 512) (q : Fin 3200) :
    (reduces_S512x3200_S512 : S512x3200.Reduces [1] S512).lift (ix1 p) q = ix2 p q := by
  funext a
  refine Fin.ext ?_
  match a with
  | ⟨0, _⟩ => rfl
  | ⟨1, _⟩ => rfl

/-- One lane of the masked tile: the logit where the column's word equals the shifted class word, zero elsewhere. -/
theorem keep_apply (i : grid0.Coords) (v2 : Vec Ideal S512x1 .i32) (v8 : Vec Ideal S512x3200 .f32) (p : Fin 512) (q : Fin 3200) :
    select
        (cmpi CmpIPredicate.eq (iota Kind.tc S512x3200 32 [1] iota_S512x3200_d1_w32)
          (broadcastTo S512x3200
            (subi (shapeCast S512x1 v2 shapeCasts_S512x1_S512x1)
              (broadcast S512x1 (Scalar.muli (BitVec.ofNat 32 (i 1).val) 3200#32)))
            broadcasts_S512x1_S512x3200))
        v8 (broadcast S512x3200 (FloatOps.ofBits (F := Ideal) FTy.f32 0#32)) (ix2 p q)
      = if BitVec.ofNat 32 q.val = v2 (ix2 p (0 : Fin 1)) - BitVec.ofNat 32 (i 1).val * 3200#32 then v8 (ix2 p q) else 0 := by
  rw [select_apply]
  show Scalar.select (IntOp.cmpi .eq (iota Kind.tc S512x3200 32 [1] iota_S512x3200_d1_w32 (ix2 p q))
      (broadcastTo S512x3200 _ broadcasts_S512x1_S512x3200 (ix2 p q))) (v8 (ix2 p q)) (Ideal.ofBits .f32 0x00000000#32) = _
  rw [iota_single_apply, broadcastTo_a1_ab_apply, shapeCast_self, Ideal.ofBits_zero_f32]
  show Scalar.select (IntOp.cmpi .eq (BitVec.ofNat 32 q.val) (v2 (ix2 p (0 : Fin 1)) - BitVec.ofNat 32 (i 1).val * 3200#32)) _ _ = _
  by_cases h : BitVec.ofNat 32 q.val = v2 (ix2 p (0 : Fin 1)) - BitVec.ofNat 32 (i 1).val * 3200#32
  · rw [if_pos h, StableHlo.Predicate.cmpi_eq_iff.mpr h, select_one]
  · rw [if_neg h, eq_zero_of_ne_one (fun e => h (StableHlo.Predicate.cmpi_eq_iff.mp e)), select_zero]

/-- The update's value at row `p`: what the block held, plus the tile's sum of the kept logits. -/
theorem pay2_apply (i : grid0.Coords) (v2 : Vec Ideal S512x1 .i32) (v8 : Vec Ideal S512x3200 .f32)
    (v16 : Vec Ideal S512x1 .f32) (p : Fin 512) :
    k0_pay2 (F := Ideal) i v2 v8 v16 (ix2 p (0 : Fin 1))
      = v16 (ix2 p (0 : Fin 1)) + ∑ q : Fin 3200,
          (if BitVec.ofNat 32 q.val = v2 (ix2 p (0 : Fin 1)) - BitVec.ofNat 32 (i 1).val * 3200#32 then v8 (ix2 p q) else 0) := by
  unfold k0_pay2
  dsimp only
  rw [addf_apply, shapeCast_self, shapeCast_a_a1_apply]
  refine congrArg (v16 (ix2 p (0 : Fin 1)) + ·) ?_
  refine (Ideal.multiReduction_add_single _ _ reduces_S512x3200_S512 _ _ (ix1 p)).trans ?_
  refine Finset.sum_congr rfl fun q _ => ?_
  exact (congrArg _ (lift_row p q)).trans (keep_apply i v2 v8 p q)

end Cert.GatherLoss.KI

end
-- ==== Proof.KBlocks.lean ====
/-
  What the body loads at a grid point, read off the argument arrays.

  The grid is 16 row tiles by 10 column tiles, the column tile the fast axis: point `t` works on rows
  `512 (t / 10) …` and columns `3200 (t % 10) …`.  The class words reach the kernel as a column `[8192, 1]` (a
  reshape of the argument), so the class block's row `p` is the word of global row `512 (t / 10) + p`, and the logit
  block's `(p, q)` is the logit of that row at column `3200 (t % 10) + q`.
-/
import proofs.«426071_j90374701842716_2_alg».proof.Proof.Gen.KernelIdeal.Frame
import proofs.«426071_j90374701842716_2_alg».proof.Proof.LibColumnCast
import Idealize.ShloMosaic.Lib.Pipeline.Value
import Idealize.ShloMosaic.Lib.StableHlo.Run
import Idealize.ShloMosaic.Lib.ValueIdx

noncomputable section

namespace Cert.GatherLoss.KI

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The two argument arrays as launched, and the two input blocks of a point, at their literal types. -/
abbrev xin (c : Dev nD) : FVec Ideal S8192x32000 .f32 := m ((c : Thread nD τ).loc main_arg0)
abbrev tin (c : Dev nD) : IVec S8192 32 := m ((c : Thread nD τ).loc main_arg1)
abbrev tblk (c : Dev nD) (t : Fin cfg0.N) : Vec Ideal S512x1 .i32 := iblk m c 0 t
abbrev xblk (c : Dev nD) (t : Fin cfg0.N) : Vec Ideal S512x3200 .f32 := iblk m c 1 t

/-- A point's grid coordinates: row tile `t / 10`, column tile `t % 10`. -/
theorem coords_facts : ∀ t : Fin cfg0.N, (grid0.coords t 0).val = t.val / 10 ∧ (grid0.coords t 1).val = t.val % 10 :=
  (by decide +kernel : ∀ t : Fin grid0.N, (grid0.coords t 0).val = t.val / 10 ∧ (grid0.coords t 1).val = t.val % 10)

/-- The three windows' block indices at a point. -/
theorem idx_facts : ∀ t : Fin cfg0.N, (win0_0.index t (0 : Fin 2) = t.val / 10 ∧ win0_0.index t (1 : Fin 2) = 0)
      ∧ (win0_1.index t (0 : Fin 2) = t.val / 10 ∧ win0_1.index t (1 : Fin 2) = t.val % 10)
      ∧ (win0_2.index t (0 : Fin 2) = t.val / 10 ∧ win0_2.index t (1 : Fin 2) = 0) :=
  (by decide +kernel : ∀ t : Fin grid0.N, (win0_0.index t (0 : Fin 2) = t.val / 10 ∧ win0_0.index t (1 : Fin 2) = 0)
      ∧ (win0_1.index t (0 : Fin 2) = t.val / 10 ∧ win0_1.index t (1 : Fin 2) = t.val % 10)
      ∧ (win0_2.index t (0 : Fin 2) = t.val / 10 ∧ win0_2.index t (1 : Fin 2) = 0))

/-- The class words' column as the region finds it: the argument stood up as a column. -/
theorem V_tcol (c : Dev nD) :
    (V m c main_v0 : S8192x1.Idx → BitVec 32) = shapeCast S8192x1 (tin m c) shapeCasts_S8192_S8192x1 := by
  show StableHlo.after hostOps0 (fun b => m (c, b)) (Proc.devRef .tc main_v0) = _
  after_results
  rfl

/-- Row `p` of the class block at point `t` is the class word of row `512 (t / 10) + p`. -/
theorem tblk_apply (c : Dev nD) (t : Fin cfg0.N) (p : Fin 512) (r : Fin 8192) (hr : r.val = 512 * (t.val / 10) + p.val) :
    tblk m c t (ix2 p (0 : Fin 1)) = tin m c (ix1 r) := by
  show iblk m c 0 t (ix2 p (0 : Fin 1)) = _
  unfold iblk
  rw [View.read_apply]
  show (V m c main_v0 : S8192x1.Idx → BitVec 32) _ = _
  rw [V_tcol]
  have he : ((cfg0.win 0).blk t).view.emb (ix2 p (0 : Fin 1)) = ix2 r (0 : Fin 1) := by
    funext a
    apply Fin.ext
    match a with
    | ⟨0, _⟩ => show win0_0.index t 0 * 512 + 1 * p.val = r.val; rw [(idx_facts t).1.1, hr]; omega
    | ⟨1, _⟩ => show win0_0.index t 1 * 1 + 1 * 0 = 0; rw [(idx_facts t).1.2]
  rw [he]
  exact shapeCast_a_a1_apply _ _ r 0

/-- Entry `(p, q)` of the logit block at point `t` is the logit of row `512 (t / 10) + p` at column `3200 (t % 10) + q`. -/
theorem xblk_apply (c : Dev nD) (t : Fin cfg0.N) (p : Fin 512) (q : Fin 3200) (r : Fin 8192) (k : Fin 32000)
    (hr : r.val = 512 * (t.val / 10) + p.val) (hk : k.val = 3200 * (t.val % 10) + q.val) :
    xblk m c t (ix2 p q) = xin m c (ix2 r k) := by
  show iblk m c 1 t (ix2 p q) = _
  unfold iblk
  rw [View.read_apply]
  show (V m c main_arg0 : S8192x32000.Idx → EReal) _ = _
  rw [V_main_arg0]
  refine congrArg (m ((c : Thread nD τ).loc main_arg0)) ?_
  funext a
  apply Fin.ext
  match a with
  | ⟨0, _⟩ => show win0_1.index t 0 * 512 + 1 * p.val = r.val; rw [(idx_facts t).2.1.1, hr]; omega
  | ⟨1, _⟩ => show win0_1.index t 1 * 3200 + 1 * q.val = k.val; rw [(idx_facts t).2.1.2, hk]; omega

end Cert.GatherLoss.KI

end
-- ==== Proof.Spec.lean ====
/-
  The loss both programs compute, stated once over the argument arrays.

  For a table of logits `x : [8192, 32000]` and one class word per row `t : [8192]`, the row's loss is
  `1 - x[r, t r]`, and the result is the sum of the rows' losses (from the zero the sum starts with) divided by
  the number of rows.  The class of a row is read off its word as a natural number; reduced modulo the number of
  classes it is a total function of the word, and on the words the precondition admits (`InRange`: every word a
  class number) the reduction is the identity.
-/
import Idealize.ShloMosaic.PureOps.Ideal
import Idealize.ShloMosaic.Lib.ValueIdx

noncomputable section

namespace Cert.GatherLoss

open Idealize.ShloMosaic Idealize.ShloMosaic.ValueIdx

/-- The logits' shape, the class words' shape and the scalar result's. -/
abbrev SX : Shape := ⟨2, ![8192, 32000]⟩
abbrev ST : Shape := ⟨1, ![8192]⟩
abbrev S0 : Shape := ⟨0, ![]⟩

/-- Every row's class word is a class number: `0 ≤ t r < 32000`, the word read as a natural number. -/
def InRange (t : IVec ST 32) : Prop := ∀ r : Fin 8192, (t (ix1 r)).toNat < 32000

/-- The class of row `r`. -/
def cls (t : IVec ST 32) (r : Fin 8192) : Fin 32000 := ⟨(t (ix1 r)).toNat % 32000, Nat.mod_lt _ (by norm_num)⟩

theorem cls_val (t : IVec ST 32) (h : InRange t) (r : Fin 8192) : (cls t r).val = (t (ix1 r)).toNat :=
  Nat.mod_eq_of_lt (h r)

/-- Row `r`'s loss: one minus the logit of the row's class. -/
def rowLoss (x : FVec Ideal SX .f32) (t : IVec ST 32) (r : Fin 8192) : EReal := 1 - x (ix2 r (cls t r))

/-- The sum of the rows' losses, from the zero word the host's sum starts with. -/
def total (x : FVec Ideal SX .f32) (t : IVec ST 32) : EReal :=
  Ideal.ofBits .f32 0x00000000#32 + ∑ r : Fin 8192, rowLoss x t r

/-- The mean loss, as the scalar array both programs end with: the total divided by the host's `8192.0`. -/
def meanLoss (x : FVec Ideal SX .f32) (t : IVec ST 32) : FVec Ideal S0 .f32 :=
  Host.divf (fun _ => total x t) (constant (F := Ideal) S0 .f32 0x46000000#32)

end Cert.GatherLoss

end
-- ==== Proof.KInvariant.lean ====
/-
  What the output block holds after every grid point.

  Within a row tile the ten column tiles are visited in order.  After column tile `j` of a row whose class is `T`
  the block holds the class's logit if the class has been passed (`T < 3200 (j + 1)`) and zero if not: the first
  tile starts from the reset's zeros, every tile adds the logit if the class lies in it and zero otherwise, and the
  class lies in exactly one tile.  The last tile then stores one minus the sum, which by then is the class's logit.
-/
import proofs.«426071_j90374701842716_2_alg».proof.Proof.KPieces
import proofs.«426071_j90374701842716_2_alg».proof.Proof.KPayload
import proofs.«426071_j90374701842716_2_alg».proof.Proof.KBlocks
import proofs.«426071_j90374701842716_2_alg».proof.Proof.Spec
import proofs.«426071_j90374701842716_2_alg».proof.Proof.TileSum

noncomputable section

namespace Cert.GatherLoss.KI

open Idealize.ShloMosaic Idealize.ShloMosaic.TcCoe Idealize.ShloMosaic.ValueIdx Idealize.SL.Sem
open Cert.KernelIdeal Cert.KernelIdeal.Gen Cert.GatherLoss

variable (m : (ℓ : Loc nD τ sig) → Buf (Elt Ideal) ℓ)

/-! ## One point's step, by control case -/

/-- A row tile's first point: the update over the reset's zeros. -/
theorem step_A (c : Dev nD) (t : Fin cfg0.N) (h0 : t.val % 10 = 0) (h1 : ¬t.val % 10 = 9) :
    outsAt0 m c t.val t.isLt = k0_pay2 (grid0.coords t) (tblk m c t) (xblk m c t) (k0_pay1 (F := Ideal)) := by
  rw [outsAt0_A m c t h0 h1]
  exact out_A (F := Ideal) c (grid0.coords t) (ms0_0 t) (hs0_0 t) (ms0_1 t) (hs0_1 t) (ms0_2 t) (hs0_2 t)
    ((hcond0_0 t).mpr h0) (fun h => h1 ((hcond0_1 t).mp h)) (iblk m c 0 t) (iblk m c 1 t)

/-- A middle point: the update over what the point before left. -/
theorem step_B (c : Dev nD) (t : Fin cfg0.N) (h0 : ¬t.val % 10 = 0) (h1 : ¬t.val % 10 = 9) :
    outsAt0 m c t.val t.isLt = k0_pay2 (grid0.coords t) (tblk m c t) (xblk m c t)
      (outsAt0 m c (t.val - 1) (Nat.lt_of_le_of_lt (Nat.sub_le _ _) t.isLt)) := by
  rw [outsAt0_B m c t h0 h1]
  exact out_B (F := Ideal) c (grid0.coords t) (ms0_0 t) (hs0_0 t) (ms0_1 t) (hs0_1 t) (ms0_2 t) (hs0_2 t)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt))

/-- A row tile's last point: one minus the update over what the point before left. -/
theorem step_C (c : Dev nD) (t : Fin cfg0.N) (h0 : ¬t.val % 10 = 0) (h1 : t.val % 10 = 9) :
    outsAt0 m c t.val t.isLt = k0_pay3 (k0_pay2 (grid0.coords t) (tblk m c t) (xblk m c t)
      (outsAt0 m c (t.val - 1) (Nat.lt_of_le_of_lt (Nat.sub_le _ _) t.isLt))) := by
  rw [outsAt0_C m c t h0 h1]
  exact out_C (F := Ideal) c (grid0.coords t) (ms0_0 t) (hs0_0 t) (ms0_1 t) (hs0_1 t) (ms0_2 t) (hs0_2 t)
    (fun h => h0 ((hcond0_0 t).mp h)) ((hcond0_1 t).mpr h1) (iblk m c 0 t) (iblk m c 1 t)
    (outsAt0 m c (t.val - 1) (Nat.lt_of_le_of_lt (Nat.sub_le _ _) t.isLt))

/-! ## The update at a row: the class's logit if the class lies in the point's column tile -/

theorem tile_at (c : Dev nD) (hT : InRange (tin m c)) (t : Fin cfg0.N) (p : Fin 512) (r : Fin 8192)
    (hr : r.val = 512 * (t.val / 10) + p.val) (v16 : Vec Ideal S512x1 .f32) :
    k0_pay2 (F := Ideal) (grid0.coords t) (tblk m c t) (xblk m c t) v16 (ix2 p (0 : Fin 1))
      = v16 (ix2 p (0 : Fin 1))
        + (if 3200 * (t.val % 10) ≤ (tin m c (ix1 r)).toNat ∧ (tin m c (ix1 r)).toNat < 3200 * (t.val % 10 + 1)
            then xin m c (ix2 r (cls (tin m c) r)) else 0) := by
  have hN : t.val < 160 := lt_of_lt_of_eq t.isLt (show cfg0.N = 160 from N_0)
  have hw := hT r
  rw [pay2_apply, tblk_apply m c t p r hr, (coords_facts t).2]
  refine congrArg (v16 (ix2 p (0 : Fin 1)) + ·) ?_
  have hx : ∀ q : Fin 3200, xblk m c t (ix2 p q)
      = xin m c (ix2 r (⟨3200 * (t.val % 10) + q.val, by have := q.isLt; omega⟩ : Fin 32000)) :=
    fun q => xblk_apply m c t p q r _ hr rfl
  refine (Finset.sum_congr rfl fun q _ => by rw [hx q]).trans ?_
  refine (tile_sum (tin m c (ix1 r)) (t.val % 10) (by omega) hw
    (fun q => xin m c (ix2 r (⟨3200 * (t.val % 10) + q.val, by have := q.isLt; omega⟩ : Fin 32000)))).trans ?_
  by_cases h : 3200 * (t.val % 10) ≤ (tin m c (ix1 r)).toNat ∧ (tin m c (ix1 r)).toNat < 3200 * (t.val % 10 + 1)
  · rw [dif_pos h, if_pos h]
    refine congrArg (fun k : Fin 32000 => xin m c (ix2 r k)) (Fin.ext ?_)
    show 3200 * (t.val % 10) + ((tin m c (ix1 r)).toNat - 3200 * (t.val % 10)) = (cls (tin m c) r).val
    rw [cls_val _ hT r]; omega
  · rw [dif_neg h, if_neg h]

/-! ## The running value -/

/-- Adding a tile's contribution to "the logit if the class has been passed". -/
theorem acc_step (xv : EReal) (T j : ℕ) :
    (if T < 3200 * j then xv else 0) + (if 3200 * j ≤ T ∧ T < 3200 * (j + 1) then xv else 0)
      = if T < 3200 * (j + 1) then xv else 0 := by
  by_cases h1 : T < 3200 * j
  · rw [if_pos h1, if_neg (by omega), if_pos (by omega), add_zero]
  · by_cases h2 : T < 3200 * (j + 1)
    · rw [if_neg h1, if_pos ⟨by omega, h2⟩, if_pos h2, zero_add]
    · rw [if_neg h1, if_neg (fun h => h2 h.2), if_neg h2, add_zero]

/-- What row `p` of the block holds after point `n`, for the global row `r = 512 (n / 10) + p` of class `T`: after
    the row tile's last point one minus the class's logit; before, the logit if `T < 3200 (n % 10 + 1)`, else zero. -/
theorem outsAt_eq (c : Dev nD) (hT : InRange (tin m c)) : ∀ (n : ℕ) (hn : n < cfg0.N) (p : Fin 512) (r : Fin 8192),
    r.val = 512 * (n / 10) + p.val →
    outsAt0 m c n hn (ix2 p (0 : Fin 1))
      = if n % 10 = 9 then 1 - xin m c (ix2 r (cls (tin m c) r))
        else if (tin m c (ix1 r)).toNat < 3200 * (n % 10 + 1) then xin m c (ix2 r (cls (tin m c) r)) else 0 := by
  intro n
  induction n with
  | zero =>
    intro hn p r hr
    have e := congrFun (step_A m c ⟨0, hn⟩ rfl (show ¬(0 % 10 = 9) from by decide)) (ix2 p (0 : Fin 1))
    refine e.trans ?_
    rw [tile_at m c hT ⟨0, hn⟩ p r hr, pay1_apply, zero_add]
    show (if 3200 * (0 % 10) ≤ _ ∧ _ < 3200 * (0 % 10 + 1) then _ else 0) = _
    rw [if_neg (by decide : ¬(0 % 10 = 9))]
    have := acc_step (xin m c (ix2 r (cls (tin m c) r))) (tin m c (ix1 r)).toNat 0
    rw [if_neg (by omega), zero_add] at this
    exact this
  | succ n ih =>
    intro hn p r hr
    have hN : n + 1 < 160 := lt_of_lt_of_eq hn (show cfg0.N = 160 from N_0)
    have hw := hT r
    by_cases h0 : (n + 1) % 10 = 0
    · have h1 : ¬(n + 1) % 10 = 9 := by omega
      have e := congrFun (step_A m c ⟨n + 1, hn⟩ h0 h1) (ix2 p (0 : Fin 1))
      refine e.trans ?_
      rw [tile_at m c hT ⟨n + 1, hn⟩ p r hr, pay1_apply, zero_add, if_neg h1]
      show (if 3200 * ((n + 1) % 10) ≤ _ ∧ _ < 3200 * ((n + 1) % 10 + 1) then _ else 0) = _
      rw [h0]
      have := acc_step (xin m c (ix2 r (cls (tin m c) r))) (tin m c (ix1 r)).toNat 0
      rw [if_neg (by omega), zero_add] at this
      exact this
    · have hr' : r.val = 512 * (n / 10) + p.val := by omega
      have hprev := ih (Nat.lt_of_succ_lt hn) p r hr'
      have hn9 : ¬n % 10 = 9 := by omega
      rw [if_neg hn9] at hprev
      have hjm : n % 10 + 1 = (n + 1) % 10 := by omega
      rw [hjm] at hprev
      by_cases h1 : (n + 1) % 10 = 9
      · have e := congrFun (step_C m c ⟨n + 1, hn⟩ h0 h1) (ix2 p (0 : Fin 1))
        refine e.trans ?_
        rw [pay3_apply, tile_at m c hT ⟨n + 1, hn⟩ p r hr, if_pos h1]
        show 1 - (outsAt0 m c n _ (ix2 p (0 : Fin 1)) + (if 3200 * ((n + 1) % 10) ≤ _ ∧ _ < 3200 * ((n + 1) % 10 + 1) then _ else 0)) = _
        rw [hprev, acc_step, if_pos (by omega)]
      · have e := congrFun (step_B m c ⟨n + 1, hn⟩ h0 h1) (ix2 p (0 : Fin 1))
        refine e.trans ?_
        rw [tile_at m c hT ⟨n + 1, hn⟩ p r hr, if_neg h1]
        show outsAt0 m c n _ (ix2 p (0 : Fin 1)) + (if 3200 * ((n + 1) % 10) ≤ _ ∧ _ < 3200 * ((n + 1) % 10 + 1) then _ else 0) = _
        rw [hprev, acc_step]

end Cert.GatherLoss.KI

end
-- ==== Proof.KFinal.lean ====
/-
  The kernel program's result.

  A row tile's last point writes the block back: row `p` of block `t / 10` of the result column is row
  `512 (t / 10) + p`'s loss.  The sixteen written blocks tile the column, so the column ends holding every row's loss,
  and the host's sum over the column from zero, divided by the number of rows, is the mean loss.
-/
import proofs.«426071_j90374701842716_2_alg».proof.Proof.KInvariant
import Idealize.ShloMosaic.Lib.IdealHost

noncomputable section

namespace Cert.GatherLoss.KI

open Idealize.ShloMosaic Idealize.ShloMosaic.TcCoe Idealize.ShloMosaic.ValueIdx Idealize.SL.Sem
open Idealize.ShloMosaic.Pipeline (Dat)
open Cert.KernelIdeal Cert.KernelIdeal.Gen Cert.GatherLoss

variable (m : (ℓ : Loc nD τ sig) → Buf (Elt Ideal) ℓ) (ρ : Dev nD → PrngReg)

/-- The column of the rows' losses. -/
abbrev lossCol (c : Dev nD) : S8192x1.Idx → EReal :=
  fun i => rowLoss (xin m c) (tin m c) ⟨(i 0).val, idx2_lt0 i⟩

/-- After a row tile's last point the block holds, at each row, that row's loss. -/
theorem flushed_at (c : Dev nD) (hT : InRange (tin m c)) (t : Fin cfg0.N) (h9 : t.val % 10 = 9) (y : S512x1.Idx) :
    outsAt0 m c t.val t.isLt y = lossCol m c (((cfg0.win 2).blk t).view.emb y) := by
  have hN : t.val < 160 := lt_of_lt_of_eq t.isLt (show cfg0.N = 160 from N_0)
  obtain ⟨p, u, rfl⟩ : ∃ (p : Fin 512) (u : Fin 1), y = ix2 p u := ⟨y 0, y 1, eq_ix2 y⟩
  obtain rfl : u = 0 := Subsingleton.elim _ _
  have hr : (((cfg0.win 2).blk t).view.emb (ix2 p (0 : Fin 1)) (0 : Fin 2)).val = 512 * (t.val / 10) + p.val := by
    show win0_2.index t 0 * 512 + 1 * p.val = _
    rw [(idx_facts t).2.2.1]; omega
  rw [outsAt_eq m c hT t.val t.isLt p ⟨512 * (t.val / 10) + p.val, by have := p.isLt; omega⟩ rfl, if_pos h9]
  show rowLoss _ _ _ = rowLoss _ _ _
  exact congrArg (rowLoss (xin m c) (tin m c)) (Fin.ext hr.symm)

/-- What a flushing point writes back is its block of the loss column. -/
theorem flushed_eq (c : Dev nD) (hT : InRange (tin m c)) (t : Fin cfg0.N) (hf : (cfg0.win 2).flush t = true) :
    (dats m 0 c).flushed 2 t = ((cfg0.win 2).blk t).view.read (Elt Ideal) (lossCol m c) := by
  show (cfg0.win 2).cut (grid0.coords t) ((dats m 0 c).after 2 t) = _
  rw [after0_2]
  exact funext fun y => flushed_at m c hT t ((flush0_2 t).mp hf) y

/-- An index of the column is in point `t`'s block iff each coordinate is in the block's range on its axis. -/
theorem mem_blk (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v1).slice (win0_2.rect t)).set ↔ _
  rw [View.set_slice_whole, Rect.mem_set_unit]
  exact Iff.rfl

/-- Every row of the column is in the block some row tile's last point writes back. -/
theorem cover (i : S8192x1.Idx) : ∃ t : Fin cfg0.N, (cfg0.win 2).flush t = true ∧ i ∈ ((cfg0.win 2).blk t).view.set := by
  have h0 : (i 0).val < 8192 := (i 0).isLt
  have h1 : (i 1).val < 1 := (i 1).isLt
  have hN : cfg0.N = 160 := N_0
  let t : Fin cfg0.N := ⟨10 * ((i 0).val / 512) + 9, by omega⟩
  have htv : t.val = 10 * ((i 0).val / 512) + 9 := rfl
  refine ⟨t, (flush0_2 t).mpr (by omega), ?_⟩
  rw [mem_blk]
  intro a
  match a with
  | ⟨0, _⟩ =>
    show win0_2.index t 0 * 512 ≤ (i 0).val ∧ (i 0).val < win0_2.index t 0 * 512 + 512
    rw [(idx_facts t).2.2.1]; omega
  | ⟨1, _⟩ =>
    show win0_2.index t 1 * 1 ≤ (i 1).val ∧ (i 1).val < win0_2.index t 1 * 1 + 1
    rw [(idx_facts t).2.2.2]; omega

/-- The result column after the run: every row's loss. -/
theorem final (c : Dev nD) (hT : InRange (tin m c)) : (dats m 0 c).arrAt 2 cfg0.N = lossCol m c :=
  (dats m 0 c).arrAt_eq_of_cover 2 (lossCol m c) (flushed_eq m c hT) cover

/-- The host's sum of the loss column from the zero word is the total. -/
theorem sum_col (c : Dev nD) :
    Host.reduceAdd (F := Ideal) (lossCol m c) (constant S_ .f32 0x00000000#32) reducesTo_S8192x1_S_d0_1 h_S_
      = fun _ => total (xin m c) (tin m c) := by
  funext j
  rw [hostReduceAdd_apply, Ideal.hostReduceAdd_total _ (fun b => b.elim0), sum_idx2]
  show Ideal.ofBits .f32 0x00000000#32 + _ = total _ _
  unfold total
  refine congrArg _ (Finset.sum_congr rfl fun r _ => ?_)
  rw [Fin.sum_univ_one]

/-- The program's result buffer after the lines that follow the region: the mean loss. -/
theorem tail_eq (c : Dev nD) (hT : InRange (tin m c)) :
    Pipeline.afterTail₀ cfgs (dats m) 0 (V0 m) [hostOps1] c main_v3 = meanLoss (xin m c) (tin m c) := by
  unfold Pipeline.afterTail₀
  show StableHlo.after hostOps1 _ (Proc.devRef .tc main_v3) = _
  after_results
  have hw : (Pipeline.withArrays (cfgs 0).spec c (V0 m c) (fun w => (dats m 0 c).arrAt w (cfgs 0).N)
      (Proc.devRef .tc main_v1) : S8192x1.Idx → EReal) = lossCol m c :=
    (Pipeline.withArrays_arr spec0 launch0.win.arr_inj c _ _ 2).trans (final m c hT)
  refine (congrArg (fun z : S8192x1.Idx → EReal => Host.divf (F := Ideal)
    (Host.reduceAdd (F := Ideal) z (constant S_ .f32 0x00000000#32) reducesTo_S8192x1_S_d0_1 h_S_)
    (constant S_ .f32 0x46000000#32)) hw).trans ?_
  show Host.divf (F := Ideal) (Host.reduceAdd (F := Ideal) (lossCol m c) (constant S_ .f32 0x00000000#32)
    reducesTo_S8192x1_S_d0_1 h_S_) (constant S_ .f32 0x46000000#32) = _
  rw [sum_col]
  rfl

/-! ## The run, read -/

/-- On class words that are class numbers: every weakly fair execution of the kernel program terminates with its
    result at the mean loss of the arguments, the arguments unchanged. -/
theorem run (hT : ∀ c : Dev nD, InRange (tin m c)) :
    θ_run defs (onTc (τ := τ) (main (F := Ideal))) ⟨m, fun _ => 0, ρ⟩ fun r => ∀ c : Dev nD,
      r.2.mem ((c : Thread nD τ).loc main_v3) = meanLoss (xin m c) (tin m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_eq m c (hT c)),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c)⟩)
    (run_main m ρ)

end Cert.GatherLoss.KI

end
-- ==== Proof.RefValue.lean ====
/-
  The reference's result is the mean loss.

  On class words that are class numbers (`InRange`) the reference's indexing does nothing but read: a word is not
  negative, so the wrap-around select keeps it; it lies in `[0, 31999]`, so the bounds mask is 1 at every row and the
  fill value is never taken; and the gather's clamp of the start index into `[0, 31999]` is the identity, so row `r`
  reads the table at `(r, t r)`. One minus that is the row's loss, the float sum over the rows is the total, and the
  last division is the mean loss's own.
-/
import proofs.«426071_j90374701842716_2_alg».proof.Proof.Gen.ReferenceIdeal.Read
import proofs.«426071_j90374701842716_2_alg».proof.Proof.Spec
import Idealize.ShloMosaic.Lib.ValueIdxRank1
import Idealize.ShloMosaic.Lib.StableHlo.Predicate
import Idealize.ShloMosaic.Lib.Affine
import Idealize.ShloMosaic.Lib.IdealHost
import Idealize.ShloMosaic.PureOps.Reduce

noncomputable section

namespace Cert.GatherLoss.Ref

open Idealize.ShloMosaic Idealize.ShloMosaic.ValueIdx Cert.ReferenceIdeal Cert.ReferenceIdeal.Gen Cert.GatherLoss
open Idealize.ShloMosaic.StableHlo.Predicate Cert.ReferenceIdeal.Read

/-! ## The class words: the wrap-around select and the bounds mask -/

/-- Every class word is below 32000, at any index of the words' array. -/
theorem word_lt (t : IVec S8192 32) (h : InRange t) (j : S8192.Idx) : (t j).toNat < 32000 := by
  rw [eq_ix1 j]; exact h _

/-- A class number is not negative: the wrap-around select keeps the word. -/
theorem v4_eq (t : IVec S8192 32) (h : InRange t) (i : S8192x1.Idx) :
    val_main_call0_v4 (F := Ideal) t i = t (idx_main_v0 i) := by
  have hw := word_lt t h (idx_main_v0 i)
  have hc : IntOp.cmpi .slt (t (idx_main_v0 i)) 0#32 = 0#1 :=
    eq_zero_of_ne_one fun e => by
      have := (slt_iff_toNat (by omega) (by decide)).mp e
      exact absurd this (Nat.not_lt_zero _)
  rw [val_main_call0_v4_apply, val_main_call0_v1_apply, val_main_v0_apply, val_main_call0_v0_apply,
    val_main_call0_c_apply, hc, select_zero]

/-- The start indices are the class words. -/
theorem v5_eq (t : IVec S8192 32) (h : InRange t) (i : S8192x1x1.Idx) :
    val_main_call0_v5 (F := Ideal) t i = t (idx_main_v0 (idx_main_call0_v5 i)) := by
  rw [val_main_call0_v5_apply, v4_eq t h]

/-- A class number lies in `[0, 31999]`: both bounds tests hold at every index. -/
theorem v11_eq (t : IVec S8192 32) (h : InRange t) (i : S8192x1x1.Idx) :
    val_main_call0_v11 (F := Ideal) t i = 1#1 := by
  have hw := word_lt t h (idx_main_v0 (idx_main_call0_v5 i))
  rw [val_main_call0_v11_apply, val_main_call0_v7_apply, val_main_call0_v10_apply, v5_eq t h,
    val_main_call0_v6_apply, val_main_call0_c_2_apply, val_main_call0_v9_apply, val_main_call0_v8_apply,
    val_main_call0_c_1_apply]
  refine IntOp.andi_eq_one.mpr ⟨(sge_iff_toNat (by omega) (by decide)).mpr (Nat.zero_le _),
    (sle_iff_toNat (by omega) (by decide)).mpr ?_⟩
  show (t (idx_main_v0 (idx_main_call0_v5 i))).toNat ≤ 31999
  omega

/-- A fold by `and` from 1 over words that are all 1 is 1. -/
theorem fold_andi_ones {ι : Type} (S : Finset ι) (f : ι → BitVec 1) (hf : ∀ k, f k = 1#1) :
    S.fold IntOp.andi 1#1 f = 1#1 := by
  classical
  induction S using Finset.induction_on with
  | empty => rfl
  | insert a S ha ih => rw [Finset.fold_insert ha, ih, hf]; rfl

/-- The bounds mask, reduced over its unit axis, is 1 at every row. -/
theorem v12_eq (t : IVec S8192 32) (h : InRange t) (j : S8192x1.Idx) :
    val_main_call0_v12 (F := Ideal) t j = 1#1 := by
  unfold val_main_call0_v12
  rw [Host.reduce_eq_fold_single IntOp.andi _ _ reducesTo_S8192x1x1_S8192x1_d2
    (by decide : S8192x1x1.Reduces [2] S8192x1) h_S_ j]
  exact fold_andi_ones _ _ fun k => v11_eq t h _

/-! ## The gather: row `r` reads the table at `(r, t r)` -/

/-- The gather's dimension numbers: operand batching axis 0, collapsed axis 1, start index map `[1]`, the index
    vector on axis 2 of the start indices, slices of one element. -/
abbrev gd : GatherDims S8192x32000 S8192x1x1 S8192x1 := gather_S8192x32000_S8192x1x1_S8192x1_n_1_0_0_1_2_11

/-- On the batching axis the operand index of result `(r, 0)` is the row `r`. -/
theorem operandIdx_row {w : Nat} (idx : IVec S8192x1x1 w) (r : Fin 8192) :
    (gd.operandIdx (ix2 r 0) idx (0 : Fin S8192x32000.rank)).val = r.val := by
  have hb : (0 : Fin S8192x32000.rank) ∈ gd.operandBatchingDims := List.mem_singleton.mpr rfl
  show gd.start (ix2 r 0) idx 0 + gd.batchCoord (ix2 r 0) 0 + gd.offCoord (ix2 r 0) 0 = r.val
  rw [GatherDims.start_batching _ _ _ _ hb,
    GatherDims.offCoord_eq_zero _ _ _ (fun hk => ((GatherDims.mem_sKept _ _).mp hk).2 hb)]
  simp only [Nat.zero_add, Nat.add_zero]
  unfold GatherDims.batchCoord
  rw [dif_pos hb]
  rfl

/-- On the collapsed axis it is the start index at `(r, 0, 0)`, read signed and clamped into `[0, 31999]`. -/
theorem operandIdx_col {w : Nat} (idx : IVec S8192x1x1 w) (r : Fin 8192) :
    (gd.operandIdx (ix2 r 0) idx (1 : Fin S8192x32000.rank)).val = min (idx (ix3 r 0 0)).toInt.toNat (32000 - 1) := by
  have hm : (1 : Fin S8192x32000.rank) ∈ gd.startIndexMap := List.mem_singleton.mpr rfl
  have hnb : (1 : Fin S8192x32000.rank) ∉ gd.operandBatchingDims :=
    fun hk => absurd (List.mem_singleton.mp hk) (by decide)
  show gd.start (ix2 r 0) idx 1 + gd.batchCoord (ix2 r 0) 1 + gd.offCoord (ix2 r 0) 1 = _
  rw [GatherDims.batchCoord_eq_zero _ _ _ hnb,
    GatherDims.offCoord_eq_zero _ _ _ (fun hk => ((GatherDims.mem_sKept _ _).mp hk).1 (List.mem_singleton.mpr rfl))]
  simp only [Nat.add_zero]
  unfold GatherDims.start
  rw [dif_pos hm]
  have hsi : gd.siIdx (ix2 r 0) ⟨List.idxOf (1 : Fin S8192x32000.rank) gd.startIndexMap,
      List.idxOf_lt_length_iff.2 hm⟩ = ix3 r 0 0 := by
    funext b; refine Fin.ext ?_
    match b with
    | ⟨0, _⟩ => rfl
    | ⟨1, _⟩ => rfl
    | ⟨2, _⟩ => rfl
  rw [hsi]
  rfl

/-- The start index at `(r, 0, 0)` is row `r`'s class word. -/
theorem idx_start (r : Fin 8192) : idx_main_v0 (idx_main_call0_v5 (ix3 r 0 0)) = ix1 r := by
  funext b; refine Fin.ext ?_
  match b with
  | ⟨0, _⟩ => show ((r.val * 1 + 0) * 1 + 0) / 1 = r.val; omega

/-- The gather at row `r`: the table at `(r, t r)`, the clamp being the identity on a class number. -/
theorem v13_eq (x : FVec Ideal S8192x32000 .f32) (t : IVec S8192 32) (h : InRange t) (r : Fin 8192) :
    val_main_call0_v13 (F := Ideal) x t (ix2 r 0) = x (ix2 r (cls t r)) := by
  unfold val_main_call0_v13 Host.gather
  show x (gd.operandIdx (ix2 r 0) (val_main_call0_v5 (F := Ideal) t)) = _
  congr 1
  funext a
  refine Fin.ext ?_
  match a with
  | ⟨0, _⟩ => exact operandIdx_row _ r
  | ⟨1, _⟩ =>
    have hw := h r
    refine (operandIdx_col _ r).trans ?_
    rw [v5_eq t h, idx_start, toInt_eq_toNat_of_lt (by omega), Int.toNat_natCast]
    show min (t (ix1 r)).toNat (32000 - 1) = (cls t r).val
    rw [cls_val t h r]; omega

/-! ## The rows' losses, their sum, and the mean -/

/-- The reshape reads row `r` at `(r, 0)`. -/
theorem idx_v2 (r : Fin 8192) : idx_main_v2 (ix1 r) = ix2 r 0 := by
  funext a; refine Fin.ext ?_
  match a with
  | ⟨0, _⟩ => exact Nat.div_one _
  | ⟨1, _⟩ => rfl

/-- Row `r` of the difference is the row's loss: the mask is 1, so the select takes the gathered value. -/
theorem v4_row (x : FVec Ideal S8192x32000 .f32) (t : IVec S8192 32) (h : InRange t) (r : Fin 8192) :
    val_main_v4 (F := Ideal) x t (ix1 r) = rowLoss x t r := by
  rw [val_main_v4_apply, val_main_v3_apply, val_main_cst_apply, val_main_v2_apply, idx_v2, val_main_v1_apply,
    v12_eq t h, select_one, v13_eq x t h r]
  show Ideal.ofBits .f32 0x3F800000#32 - x (ix2 r (cls t r)) = 1 - x (ix2 r (cls t r))
  rw [Ideal.ofBits_one_f32]

/-- The float sum over the rows is the total. -/
theorem v5_eq_total (x : FVec Ideal S8192x32000 .f32) (t : IVec S8192 32) (h : InRange t) :
    val_main_v5 (F := Ideal) x t = fun _ => total x t := by
  funext i
  have e := Equiv.sum_comp (idxEquiv1 (n := 8192)).symm (val_main_v4 (F := Ideal) x t)
  rw [val_main_v5_apply, val_main_cst_0_apply, ← e]
  show Ideal.ofBits .f32 0x00000000#32 + ∑ r : Fin 8192, val_main_v4 (F := Ideal) x t (ix1 r) = total x t
  unfold total
  exact congrArg _ (Finset.sum_congr rfl fun r _ => v4_row x t h r)

/-- On class words that are class numbers the reference's last stage is the mean loss of the arguments. -/
theorem result_eq (x : FVec Ideal S8192x32000 .f32) (t : IVec S8192 32) (h : InRange t) :
    Cert.ReferenceIdeal.Read.val_main_v6 (F := Ideal) x t = meanLoss x t := by
  unfold val_main_v6 meanLoss
  rw [v5_eq_total x t h]
  rfl

end Cert.GatherLoss.Ref

end
-- ==== Proof.PreRange.lean ====
/-
  The precondition makes every class word a class number.
-/
import proofs.«426071_j90374701842716_2_alg».proof.Pre_finite_inputs
import proofs.«426071_j90374701842716_2_alg».proof.Proof.Spec
import Idealize.ShloMosaic.Lib.ReduceAll
import Idealize.ShloMosaic.Lib.IdealHost

noncomputable section

namespace Cert.GatherLoss.Pre

open Idealize.ShloMosaic Idealize.ShloMosaic.ValueIdx Cert.GatherLoss

/-- A 32-bit word that tests `0 ≤ w` and `w < 32000` as a signed number reads below 32000 as a natural number:
    the first test clears the sign bit, so the signed and the unsigned reading agree, and the second bounds it. -/
theorem toNat_lt_of_signed_tests (w : BitVec 32) (h0 : IntOp.cmpi .sge w 0#32 = 1#1)
    (h1 : IntOp.cmpi .slt w 32000#32 = 1#1) : w.toNat < 32000 := by
  rw [IntOp.cmpi_sge, show (0#32 : BitVec 32).toInt = 0 from by decide] at h0
  rw [IntOp.cmpi_slt, show (32000#32 : BitVec 32).toInt = 32000 from by decide] at h1
  have hs : 2 * w.toNat < 2 ^ 32 := BitVec.toInt_pos_iff.1 h0
  rw [BitVec.toInt_eq_toNat_of_lt hs] at h1
  omega

/-- If the printed precondition is all ones on the arguments, every class word is a class number. -/
theorem inRange {F : FTy → Type} [FloatOps F] [Cert.Pre_finite_inputs.Facts]
    (x : FVec F Cert.Pre_finite_inputs.S8192x32000 .f32) (t : IVec Cert.Pre_finite_inputs.S8192 32)
    (h : Cert.Pre_finite_inputs.fn (F := F) x t = fun _ => 1#1) : InRange t := by
  intro r
  have h0 := congrFun h ix0
  dsimp only [Cert.Pre_finite_inputs.fn] at h0
  -- the last `and`: its second operand, the `all` over the class words, is one
  have h1 := (IntOp.andi_eq_one.1 h0).2
  -- the scalar shape has one index, so the `all` gives every element
  haveI : Subsingleton Cert.Pre_finite_inputs.S_.Idx := ⟨fun a b => funext fun d => d.elim0⟩
  have h2 := Host.reduce_andi_all _ _ _ _ _ h1 (ix1 r)
  -- the element at row `r` is the `and` of the two signed tests of the row's word; each test's second operand
  -- is a constant scalar broadcast along the rows, which reads the constant at every row
  obtain ⟨hge, hlt⟩ := IntOp.andi_eq_one.1 h2
  have hge' : IntOp.cmpi .sge (t (ix1 r)) 0#32 = 1#1 := hge
  have hlt' : IntOp.cmpi .slt (t (ix1 r)) 32000#32 = 1#1 := hlt
  exact toNat_lt_of_signed_tests (t (ix1 r)) hge' hlt'

end Cert.GatherLoss.Pre

end
-- ==== Proof.lean ====
/-
  The gathered-logit loss: a Pallas kernel against jnp's take_along_axis.

  Both programs take a table of logits `x : [8192, 32000]` and a class word per row `t : [8192]` and return the
  mean over the rows of `1 - x[r, t r]`.  The kernel never indexes: on a 16 x 10 grid of 512 x 3200 tiles it compares
  the column number with the row's class word shifted by the tile's first column, keeps the logit where they agree and
  zero elsewhere, sums the tile's lanes into the row's accumulator (the output block, resident over a row tile's ten
  column tiles: reset at the first, stored as one minus itself at the last), and the host sums the column of
  losses and divides by 8192.  The reference gathers `x[r, t r]` (wrapping a negative word, filling a word out of
  range with NaN), subtracts from one, sums and divides by 8192.

  Under the precondition every class word is a class number, `0 <= t r < 32000`.  Then exactly one lane of exactly
  one column tile passes the kernel's word test, so the ten tiles' sums add up to the class's logit (a sum whose
  other terms are zero: no finiteness of the logits is used), and the reference's wrap, bounds mask and clamp all do
  nothing.  Both results are the same term `meanLoss x t`: the total of the rows' losses from the zero word,
  divided by the host's 8192.0.

  The three frames are the generated ones (the reference's is its generated run with the result dropped); the
  ideal pass rewrote nothing, so the idealization conjunct is `True`.
-/
import proofs.«426071_j90374701842716_2_alg».proof.Defs
import proofs.«426071_j90374701842716_2_alg».proof.Proof.Gen.Kernel
import proofs.«426071_j90374701842716_2_alg».proof.Proof.Gen.Kernel.Skeleton
import proofs.«426071_j90374701842716_2_alg».proof.Proof.Gen.Kernel.Launch
import proofs.«426071_j90374701842716_2_alg».proof.Proof.Gen.Kernel.Points
import proofs.«426071_j90374701842716_2_alg».proof.Proof.Gen.Kernel.Frame
import proofs.«426071_j90374701842716_2_alg».proof.Proof.Gen.KernelIdeal
import proofs.«426071_j90374701842716_2_alg».proof.Proof.Gen.KernelIdeal.Skeleton
import proofs.«426071_j90374701842716_2_alg».proof.Proof.Gen.KernelIdeal.Launch
import proofs.«426071_j90374701842716_2_alg».proof.Proof.Gen.KernelIdeal.Points
import proofs.«426071_j90374701842716_2_alg».proof.Proof.Gen.KernelIdeal.Frame
import proofs.«426071_j90374701842716_2_alg».proof.Proof.Gen.ReferenceIdeal
import proofs.«426071_j90374701842716_2_alg».proof.Proof.Gen.ReferenceIdeal.Run
import proofs.«426071_j90374701842716_2_alg».proof.Proof.Gen.ReferenceIdeal.Read
import proofs.«426071_j90374701842716_2_alg».proof.Proof.Gen.Pre_finite_inputs
import proofs.«426071_j90374701842716_2_alg».proof.Proof.KFinal
import proofs.«426071_j90374701842716_2_alg».proof.Proof.RefValue
import proofs.«426071_j90374701842716_2_alg».proof.Proof.PreRange
import Idealize.ShloMosaic.Adequacy
import Idealize.ShloMosaic.Init

noncomputable section

namespace Cert.Proof

open Idealize.ShloMosaic Idealize.SL.Sem Cert.GatherLoss

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories that agree on the two arguments and satisfy the precondition, the kernel
    program and the reference both end with the mean loss of the arguments. -/
theorem algebraic : Cert.algebraic_KernelIdeal_ReferenceIdeal := by
  intro m ρ m' ρ' hpre hagree
  have hT : ∀ c, InRange (KI.tin m c) := fun c => Pre.inRange (F := Ideal) _ _ (hpre c)
  refine ⟨fun c => meanLoss (KI.xin m c) (KI.tin m c), KI.run m ρ hT, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v6_eq _ _).trans (Ref.result_eq _ _ (hT c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
